-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x64x256x256 .f32) (main_arg1 : FVec F S256x1024 .f32) (main_arg2 : FVec F S256 .f32) (main_arg3 : FVec F S1024x256 .f32) (main_arg4 : FVec F S1024 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S8x64x256x256 : Shape := ⟨4, ![8, 64, 256, 256]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S8x64x4x4 : Shape := ⟨4, ![8, 64, 4, 4]⟩
abbrev S1x16x256x256 : Shape := ⟨4, ![1, 16, 256, 256]⟩
abbrev S1x16x4x4 : Shape := ⟨4, ![1, 16, 4, 4]⟩
abbrev S16x256x256 : Shape := ⟨3, ![16, 256, 256]⟩
abbrev S16x4x64x256 : Shape := ⟨4, ![16, 4, 64, 256]⟩
abbrev S16x4x256 : Shape := ⟨3, ![16, 4, 256]⟩
abbrev S16x4x4x64 : Shape := ⟨4, ![16, 4, 4, 64]⟩
abbrev S16x4x4 : Shape := ⟨3, ![16, 4, 4]⟩
abbrev S8x4x4x64 : Shape := ⟨4, ![8, 4, 4, 64]⟩
abbrev S8x1024 : Shape := ⟨2, ![8, 1024]⟩
abbrev S8x256 : Shape := ⟨2, ![8, 256]⟩
abbrev S1x256 : Shape := ⟨2, ![1, 256]⟩
abbrev S_ : Shape := ⟨0, ![]⟩
abbrev S1x1024 : Shape := ⟨2, ![1, 1024]⟩
abbrev S16x64x256 : Shape := ⟨3, ![16, 64, 256]⟩
abbrev S16x1x4 : Shape := ⟨3, ![16, 1, 4]⟩
abbrev S16x4 : Shape := ⟨2, ![16, 4]⟩
abbrev S16x4x1 : Shape := ⟨3, ![16, 4, 1]⟩
abbrev S16x4x64 : Shape := ⟨3, ![16, 4, 64]⟩
abbrev S16x256 : Shape := ⟨2, ![16, 256]⟩
abbrev S16x1x256 : Shape := ⟨3, ![16, 1, 256]⟩
abbrev S1x16x64x256 : Shape := ⟨4, ![1, 16, 64, 256]⟩

abbrev nBuf : Space → Nat
  | .hbm => 45
  | .vmem => 10
  | .smem => 0
  | _ => 0

abbrev bufTy : (tb : Table) → Fin (tcTables nBuf tb) → BufTy
  | .hbm, ⟨0, _⟩ => ⟨S8x64x256x256, .f32⟩
  | .hbm, ⟨1, _⟩ => ⟨S256x1024, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S8x64x4x4, .f32⟩
  | .hbm, ⟨6, _⟩ => ⟨S8x4x4x64, .f32⟩
  | .hbm, ⟨7, _⟩ => ⟨S8x1024, .f32⟩
  | .hbm, ⟨8, _⟩ => ⟨S1024x256, .f32⟩
  | .hbm, ⟨9, _⟩ => ⟨S8x256, .f32⟩
  | .hbm, ⟨10, _⟩ => ⟨S1x256, .f32⟩
  | .hbm, ⟨11, _⟩ => ⟨S8x256, .f32⟩
  | .hbm, ⟨12, _⟩ => ⟨S8x256, .f32⟩
  | .hbm, ⟨13, _⟩ => ⟨S_, .f32⟩
  | .hbm, ⟨14, _⟩ => ⟨S8x256, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S8x256, .i1⟩
  | .hbm, ⟨19, _⟩ => ⟨S8x256, .f32⟩
  | .hbm, ⟨20, _⟩ => ⟨S8x256, .f32⟩
  | .hbm, ⟨21, _⟩ => ⟨S8x256, .f32⟩
  | .hbm, ⟨22, _⟩ => ⟨S8x256, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S8x256, .f32⟩
  | .hbm, ⟨29, _⟩ => ⟨S256x1024, .f32⟩
  | .hbm, ⟨30, _⟩ => ⟨S8x1024, .f32⟩
  | .hbm, ⟨31, _⟩ => ⟨S1x1024, .f32⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | .hbm, ⟨39, _⟩ => ⟨S_, .f32⟩
  | .hbm, ⟨40, _⟩ => ⟨S8x1024, .f32⟩
  | .hbm, ⟨41, _⟩ => ⟨S8x1024, .f32⟩
  | .hbm, ⟨42, _⟩ => ⟨S8x4x4x64, .f32⟩
  | .hbm, ⟨43, _⟩ => ⟨S8x64x4x4, .f32⟩
  | .hbm, ⟨44, _⟩ => ⟨S8x64x256x256, .f32⟩
  | .local _ .vmem, ⟨0, _⟩ => ⟨S1x16x256x256, .f32⟩
  | .local _ .vmem, ⟨1, _⟩ => ⟨S1x16x256x256, .f32⟩
  | .local _ .vmem, ⟨2, _⟩ => ⟨S1x16x4x4, .f32⟩
  | .local _ .vmem, ⟨3, _⟩ => ⟨S1x16x4x4, .f32⟩
  | .local _ .vmem, ⟨4, _⟩ => ⟨S1x16x256x256, .f32⟩
  | .local _ .vmem, ⟨5, _⟩ => ⟨S1x16x256x256, .f32⟩
  | .local _ .vmem, ⟨6, _⟩ => ⟨S1x16x4x4, .f32⟩
  | .local _ .vmem, ⟨7, _⟩ => ⟨S1x16x4x4, .f32⟩
  | .local _ .vmem, ⟨8, _⟩ => ⟨S1x16x256x256, .f32⟩
  | .local _ .vmem, ⟨9, _⟩ => ⟨S1x16x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x4x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  shapeCasts_S16x256x256_S16x4x64x256 : S16x256x256.ShapeCasts S16x4x64x256
  reduces_S16x4x64x256_S16x4x256 : S16x4x64x256.Reduces [2] S16x4x256
  shapeCasts_S16x4x256_S16x4x4x64 : S16x4x256.ShapeCasts S16x4x4x64
  reduces_S16x4x4x64_S16x4x4 : S16x4x4x64.Reduces [3] S16x4x4
  inb_S1x16x4x4_S1x16x4x4_0_0_0_0 : ∀ a, (![0, 0, 0, 0] : Fin 4 → Nat) a + S1x16x4x4.size a ≤ S1x16x4x4.size a
  h_S1x16x4x4 : 0 < S1x16x4x4.numel
  shapeCasts_S1x16x4x4_S16x4x4 : S1x16x4x4.ShapeCasts S16x4x4
  shapeCasts_S16x4x4_S1x16x4x4 : S16x4x4.ShapeCasts S1x16x4x4
  transposes_S8x64x4x4_S8x4x4x64_0_2_3_1 : S8x64x4x4.Transposes [0, 2, 3, 1] S8x4x4x64
  shapeCasts_S8x4x4x64_S8x1024 : S8x4x4x64.ShapeCasts S8x1024
  transposes_S256x1024_S1024x256_1_0 : S256x1024.Transposes [1, 0] S1024x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  bcast_S_S8x1024 : S_.BroadcastsInDim S8x1024 (![] : Fin 0 → Fin S8x1024.rank)
  shapeCasts_S8x1024_S8x4x4x64 : S8x1024.ShapeCasts S8x4x4x64
  transposes_S8x4x4x64_S8x64x4x4_0_3_1_2 : S8x4x4x64.Transposes [0, 3, 1, 2] S8x64x4x4
  slices_S16x256x256_o0_0_0_S16x64x256 : S16x256x256.Slices ![0, 0, 0] S16x64x256
  slices_S16x4x4_o0_0_0_S16x1x4 : S16x4x4.Slices ![0, 0, 0] S16x1x4
  shapeCasts_S16x1x4_S16x4 : S16x1x4.ShapeCasts S16x4
  shapeCasts_S16x4_S16x4x1 : S16x4.ShapeCasts S16x4x1
  shapeCasts_S16x4x1_S16x4x1 : S16x4x1.ShapeCasts S16x4x1
  broadcasts_S16x4x1_S16x4x64 : S16x4x1.Broadcasts S16x4x64
  shapeCasts_S16x4x64_S16x256 : S16x4x64.ShapeCasts S16x256
  shapeCasts_S16x256_S16x1x256 : S16x256.ShapeCasts S16x1x256
  shapeCasts_S16x1x256_S16x1x256 : S16x1x256.ShapeCasts S16x1x256
  broadcasts_S16x1x256_S16x64x256 : S16x1x256.Broadcasts S16x64x256
  inb_S1x16x256x256_S1x16x64x256_0_0_0_0 : ∀ a, (![0, 0, 0, 0] : Fin 4 → Nat) a + S1x16x64x256.size a ≤ S1x16x256x256.size a
  h_S1x16x64x256 : 0 < S1x16x64x256.numel
  shapeCasts_S1x16x64x256_S16x64x256 : S1x16x64x256.ShapeCasts S16x64x256
  shapeCasts_S16x64x256_S1x16x64x256 : S16x64x256.ShapeCasts S1x16x64x256
  slices_S16x256x256_o0_64_0_S16x64x256 : S16x256x256.Slices ![0, 64, 0] S16x64x256
  slices_S16x4x4_o0_1_0_S16x1x4 : S16x4x4.Slices ![0, 1, 0] S16x1x4
  inb_S1x16x256x256_S1x16x64x256_0_0_64_0 : ∀ a, (![0, 0, 64, 0] : Fin 4 → Nat) a + S1x16x64x256.size a ≤ S1x16x256x256.size a
  slices_S16x256x256_o0_128_0_S16x64x256 : S16x256x256.Slices ![0, 128, 0] S16x64x256
  slices_S16x4x4_o0_2_0_S16x1x4 : S16x4x4.Slices ![0, 2, 0] S16x1x4
  inb_S1x16x256x256_S1x16x64x256_0_0_128_0 : ∀ a, (![0, 0, 128, 0] : Fin 4 → Nat) a + S1x16x64x256.size a ≤ S1x16x256x256.size a
  slices_S16x256x256_o0_192_0_S16x64x256 : S16x256x256.Slices ![0, 192, 0] S16x64x256
  slices_S16x4x4_o0_3_0_S16x1x4 : S16x4x4.Slices ![0, 3, 0] S16x1x4
  inb_S1x16x256x256_S1x16x64x256_0_0_192_0 : ∀ a, (![0, 0, 192, 0] : Fin 4 → Nat) a + S1x16x64x256.size a ≤ S1x16x256x256.size a
  dot_S8x1024_S1024x256_S8x256_1_0_0_1_n_n_wf : DotDims.WF S8x1024 S1024x256 S8x256 [1] [0] [0] [1] [] []
  dot_S8x256_S256x1024_S8x1024_1_0_0_1_n_n_wf : DotDims.WF S8x256 S256x1024 S8x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S8x64x256x256.size a
  hwx0_0 : ∀ i : grid0.Coords, EltTy.bits .f32 = 32 ∨ (Rect.block (s := S8x64x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x4x4.size a ≤ S8x64x4x4.size a
  hwx0_1 : ∀ i : grid0.Coords, EltTy.bits .f32 = 32 ∨ (Rect.block (s := S8x64x4x4) S1x16x4x4.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x256x256.size a ≤ S8x64x256x256.size a
  hwx1_0 : ∀ i : grid1.Coords, EltTy.bits .f32 = 32 ∨ (Rect.block (s := S8x64x256x256) S1x16x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x4x4.size a ≤ S8x64x4x4.size a
  hwx1_1 : ∀ i : grid1.Coords, EltTy.bits .f32 = 32 ∨ (Rect.block (s := S8x64x4x4) S1x16x4x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x256x256.size a ≤ S8x64x256x256.size a
  hwx1_2 : ∀ i : grid1.Coords, EltTy.bits .f32 = 32 ∨ (Rect.block (s := S8x64x256x256) S1x16x256x256.size (cc1_transform_2 i) (hinb1_2 i)).WholeWords (EltTy.packing .f32)

variable [Facts₀]

def dot_S8x1024_S1024x256_S8x256_1_0_0_1_n_n : DotDims S8x1024 S1024x256 S8x256 where
  lhsContracting := [1]
  rhsContracting := [0]
  lhsNonContracting := [0]
  rhsNonContracting := [1]
  lhsBatch := []
  rhsBatch := []
  wf := dot_S8x1024_S1024x256_S8x256_1_0_0_1_n_n_wf
def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x4x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x16x4x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x16x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x64x256x256 : Shape := ⟨4, ![8, 64, 256, 256]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S8x64x4x64x4x64 : Shape := ⟨6, ![8, 64, 4, 64, 4, 64]⟩
abbrev S_ : Shape := ⟨0, ![]⟩
abbrev S8x64x4x4 : Shape := ⟨4, ![8, 64, 4, 4]⟩
abbrev S8x4x4x64 : Shape := ⟨4, ![8, 4, 4, 64]⟩
abbrev S8x1024 : Shape := ⟨2, ![8, 1024]⟩
abbrev S8x256 : Shape := ⟨2, ![8, 256]⟩
abbrev S1x256 : Shape := ⟨2, ![1, 256]⟩
abbrev S1x1024 : Shape := ⟨2, ![1, 1024]⟩
abbrev S8x64x4x1x4x1 : Shape := ⟨6, ![8, 64, 4, 1, 4, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S256x1024, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S8x64x4x64x4x64, .f32⟩
  | .hbm, ⟨6, _⟩ => ⟨S_, .f32⟩
  | .hbm, ⟨7, _⟩ => ⟨S8x64x4x4, .f32⟩
  | .hbm, ⟨8, _⟩ => ⟨S_, .f32⟩
  | .hbm, ⟨9, _⟩ => ⟨S8x64x4x4, .f32⟩
  | .hbm, ⟨10, _⟩ => ⟨S8x64x4x4, .f32⟩
  | .hbm, ⟨11, _⟩ => ⟨S8x4x4x64, .f32⟩
  | .hbm, ⟨12, _⟩ => ⟨S8x1024, .f32⟩
  | .hbm, ⟨13, _⟩ => ⟨S1024x256, .f32⟩
  | .hbm, ⟨14, _⟩ => ⟨S8x256, .f32⟩
  | .hbm, ⟨15, _⟩ => ⟨S1x256, .f32⟩
  | .hbm, ⟨16, _⟩ => ⟨S8x256, .f32⟩
  | .hbm, ⟨17, _⟩ => ⟨S8x256, .f32⟩
  | .hbm, ⟨18, _⟩ => ⟨S_, .f32⟩
  | .hbm, ⟨19, _⟩ => ⟨S8x256, .f32⟩
  | .hbm, ⟨20, _⟩ => ⟨S8x256, .f32⟩
  | .hbm, ⟨21, _⟩ => ⟨S8x256, .f32⟩
  | .hbm, ⟨22, _⟩ => ⟨S8x256, .f32⟩
  | .hbm, ⟨23, _⟩ => ⟨S8x256, .i1⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S8x256, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S256x1024, .f32⟩
  | .hbm, ⟨35, _⟩ => ⟨S8x1024, .f32⟩
  | .hbm, ⟨36, _⟩ => ⟨S1x1024, .f32⟩
  | .hbm, ⟨37, _⟩ => ⟨S8x1024, .f32⟩
  | .hbm, ⟨38, _⟩ => ⟨S8x1024, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S8x4x4x64, .f32⟩
  | .hbm, ⟨48, _⟩ => ⟨S8x64x4x4, .f32⟩
  | .hbm, ⟨49, _⟩ => ⟨S8x64x4x1x4x1, .f32⟩
  | .hbm, ⟨50, _⟩ => ⟨S8x64x4x64x4x64, .f32⟩
  | .hbm, ⟨51, _⟩ => ⟨S8x64x4x64x4x64, .f32⟩
  | .hbm, ⟨52, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]

class Facts₀ : Prop where
  shapeCasts_S8x64x256x256_S8x64x4x64x4x64 : S8x64x256x256.ShapeCasts S8x64x4x64x4x64
  reducesTo_S8x64x4x64x4x64_S8x64x4x4_d3_5 : S8x64x4x64x4x64.ReducesTo [3, 5] S8x64x4x4
  h_S_ : 0 < S_.numel
  bcast_S_S8x64x4x4 : S_.BroadcastsInDim S8x64x4x4 (![] : Fin 0 → Fin S8x64x4x4.rank)
  transposes_S8x64x4x4_S8x4x4x64_0_2_3_1 : S8x64x4x4.Transposes [0, 2, 3, 1] S8x4x4x64
  shapeCasts_S8x4x4x64_S8x1024 : S8x4x4x64.ShapeCasts S8x1024
  transposes_S256x1024_S1024x256_1_0 : S256x1024.Transposes [1, 0] S1024x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  bcast_S_S8x1024 : S_.BroadcastsInDim S8x1024 (![] : Fin 0 → Fin S8x1024.rank)
  shapeCasts_S8x1024_S8x4x4x64 : S8x1024.ShapeCasts S8x4x4x64
  transposes_S8x4x4x64_S8x64x4x4_0_3_1_2 : S8x4x4x64.Transposes [0, 3, 1, 2] S8x64x4x4
  bcast_S8x64x4x4_S8x64x4x1x4x1_0_1_2_4 : S8x64x4x4.BroadcastsInDim S8x64x4x1x4x1 (![0, 1, 2, 4] : Fin 4 → Fin S8x64x4x1x4x1.rank)
  bcast_S8x64x4x1x4x1_S8x64x4x64x4x64_0_1_2_3_4_5 : S8x64x4x1x4x1.BroadcastsInDim S8x64x4x64x4x64 (![0, 1, 2, 3, 4, 5] : Fin 6 → Fin S8x64x4x64x4x64.rank)
  shapeCasts_S8x64x4x64x4x64_S8x64x256x256 : S8x64x4x64x4x64.ShapeCasts S8x64x256x256
  dot_S8x1024_S1024x256_S8x256_1_0_0_1_n_n_wf : DotDims.WF S8x1024 S1024x256 S8x256 [1] [0] [0] [1] [] []
  dot_S8x256_S256x1024_S8x1024_1_0_0_1_n_n_wf : DotDims.WF S8x256 S256x1024 S8x1024 [1] [0] [0] [1] [] []

variable [Facts₀]

def dot_S8x1024_S1024x256_S8x256_1_0_0_1_n_n : DotDims S8x1024 S1024x256 S8x256 where
  lhsContracting := [1]
  rhsContracting := [0]
  lhsNonContracting := [0]
  rhsNonContracting := [1]
  lhsBatch := []
  rhsBatch := []
  wf := dot_S8x1024_S1024x256_S8x256_1_0_0_1_n_n_wf
def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf

class Facts : Prop extends Facts₀ where

variable [Facts]
-- ==== Proof.Spec.lean ====
/-
  The two whole-array functions of this certificate, stated over the extended reals with no program in sight.

  An image batch x : [8, 64, 256, 256] is cut, per (batch, channel), into a 4 x 4 grid of 64 x 64 patches.
  pool x is the mean of each patch, an [8, 64, 4, 4] array; gate x g multiplies every pixel by the entry of an
  [8, 64, 4, 4] array g that belongs to the pixel's patch. Between the two sits a small dense network on the
  pooled means, which both programs spell with the same host operations and which is never opened here.
-/
import Idealize.ShloMosaic.PureOps.Ideal
import Idealize.ShloMosaic.PureOps.Ideal.Laws
import Idealize.ShloMosaic.Lib.ValueIdx
import Idealize.ShloMosaic.Lib.ValueIdxRank6

noncomputable section

open scoped BigOperators

namespace Cert.Excite

open Idealize.ShloMosaic Idealize.ShloMosaic.ValueIdx

/-- Row (or column) number r of patch p, as a row (or column) of the image: patches are 64 wide. -/
def pix (p : Fin 4) (r : Fin 64) : Fin 256 := ⟨p.val * 64 + r.val, by have := p.isLt; have := r.isLt; omega⟩
/-- The patch a row (or column) of the image lies in. -/
def patch (h : Fin 256) : Fin 4 := ⟨h.val / 64, by have := h.isLt; omega⟩
/-- Its number inside that patch. -/
def within (h : Fin 256) : Fin 64 := ⟨h.val % 64, Nat.mod_lt _ (by decide)⟩

theorem pix_val (p : Fin 4) (r : Fin 64) : (pix p r).val = p.val * 64 + r.val := rfl
theorem patch_val (h : Fin 256) : (patch h).val = h.val / 64 := rfl
theorem within_val (h : Fin 256) : (within h).val = h.val % 64 := rfl

theorem patch_pix (p : Fin 4) (r : Fin 64) : patch (pix p r) = p :=
  Fin.ext (by have := r.isLt; rw [patch_val, pix_val]; omega)
theorem pix_patch_within (h : Fin 256) : pix (patch h) (within h) = h :=
  Fin.ext (by rw [pix_val, patch_val, within_val]; omega)

/-- The f32 word of 2^-12 is the real 1 / 4096, and the word of 4096.0 the real 4096. -/
theorem ofBits_inv4096 : Ideal.ofBits .f32 0x39800000#32 = ((1 / 4096 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num

/-- The mean of patch (p, q) of image (b, c): the sum of its 64 x 64 pixels times 1 / 4096. -/
def poolAt (x : (⟨4, ![8, 64, 256, 256]⟩ : Shape).Idx → EReal) (b : Fin 8) (c : Fin 64) (p q : Fin 4) : EReal :=
  (∑ r : Fin 64 × Fin 64, x (ix4 b c (pix p r.1) (pix q r.2))) * ((1 / 4096 : ℝ) : EReal)

/-- Every patch's mean. -/
def pool (x : (⟨4, ![8, 64, 256, 256]⟩ : Shape).Idx → EReal) : (⟨4, ![8, 64, 4, 4]⟩ : Shape).Idx → EReal :=
  fun i => poolAt x (i 0) (i 1) (i 2) (i 3)

theorem pool_ix4 (x : (⟨4, ![8, 64, 256, 256]⟩ : Shape).Idx → EReal) (b : Fin 8) (c : Fin 64) (p q : Fin 4) :
    pool x (ix4 b c p q) = poolAt x b c p q := rfl

/-- Pixel (h, w) of image (b, c) times the gate of the patch it lies in. -/
def gateAt (x : (⟨4, ![8, 64, 256, 256]⟩ : Shape).Idx → EReal) (g : (⟨4, ![8, 64, 4, 4]⟩ : Shape).Idx → EReal)
    (b : Fin 8) (c : Fin 64) (h w : Fin 256) : EReal :=
  x (ix4 b c h w) * g (ix4 b c (patch h) (patch w))

/-- Every pixel gated. -/
def gate (x : (⟨4, ![8, 64, 256, 256]⟩ : Shape).Idx → EReal) (g : (⟨4, ![8, 64, 4, 4]⟩ : Shape).Idx → EReal) :
    (⟨4, ![8, 64, 256, 256]⟩ : Shape).Idx → EReal :=
  fun i => gateAt x g (i 0) (i 1) (i 2) (i 3)

theorem gate_ix4 (x : (⟨4, ![8, 64, 256, 256]⟩ : Shape).Idx → EReal) (g : (⟨4, ![8, 64, 4, 4]⟩ : Shape).Idx → EReal)
    (b : Fin 8) (c : Fin 64) (h w : Fin 256) : gate x g (ix4 b c h w) = gateAt x g b c h w := rfl

/-- A sum over the columns of the sums over the rows of a patch is the sum over the patch: addition of extended
    reals is commutative and associative, so the order of the two sums does not matter. -/
theorem sum_cols_rows (f : Fin 64 → Fin 64 → EReal) :
    ∑ w : Fin 64, ∑ h : Fin 64, f h w = ∑ r : Fin 64 × Fin 64, f r.1 r.2 := by
  rw [Finset.sum_comm, Fintype.sum_prod_type]

/-- Dividing by 4096 is multiplying by 1 / 4096, on every extended real. -/
theorem div_4096 (a : EReal) : Ideal.div a ((4096 : ℝ) : EReal) = a * ((1 / 4096 : ℝ) : EReal) :=
  Ideal.div_coe (by norm_num) a

end Cert.Excite

end
-- ==== Proof.PoolBlock.lean ====
/-
  What the pooling kernel's body computes, element by element.

  The body loads a [1, 16, 256, 256] block, regroups its rows as 4 groups of 64 and sums each group, regroups the
  columns of the result as 4 groups of 64 and sums each group, and multiplies by the word of 2^-12. Element
  (0, c, p, q) of what it stores is therefore the sum over patch (p, q) of channel c of the block, times 1 / 4096:
  a sum over the patch's columns of sums over its rows, which is the sum over the patch in any order.
-/
import proofs.«158542_j55224689492533_1_alg».proof.Proof.Gen.KernelIdeal.Skeleton
import proofs.«158542_j55224689492533_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PoolBlock

open Idealize.ShloMosaic Idealize.ShloMosaic.ValueIdx Cert.KernelIdeal Cert.KernelIdeal.Gen Cert.Excite

variable {α : Type}

/-! ## The body's shape casts, read at coordinates: equal row-major positions -/

/-- Adding a leading unit axis: [16, 4, 4] as [1, 16, 4, 4]. -/
theorem cast_lead (v : (⟨3, ![16, 4, 4]⟩ : Shape).Idx → α) (h : (⟨3, ![16, 4, 4]⟩ : Shape).ShapeCasts ⟨4, ![1, 16, 4, 4]⟩)
    (z : Fin 1) (c : Fin 16) (p q : Fin 4) : shapeCast ⟨4, ![1, 16, 4, 4]⟩ v h (ix4 z c p q) = v (ix3 c p q) :=
  shapeCast_apply v h _ _ (by
    rewrite [Shape.rowMajor_val_three, Shape.rowMajor_val_four]
    show (c.val * 4 + p.val) * 4 + q.val = ((z.val * 16 + c.val) * 4 + p.val) * 4 + q.val
    have := z.isLt; omega)

/-- Columns regrouped: column r of group q of [16, 4, 4, 64] is column q * 64 + r of [16, 4, 256]. -/
theorem cast_cols (v : (⟨3, ![16, 4, 256]⟩ : Shape).Idx → α) (h : (⟨3, ![16, 4, 256]⟩ : Shape).ShapeCasts ⟨4, ![16, 4, 4, 64]⟩)
    (c : Fin 16) (p q : Fin 4) (r : Fin 64) : shapeCast ⟨4, ![16, 4, 4, 64]⟩ v h (ix4 c p q r) = v (ix3 c p (pix q r)) :=
  shapeCast_apply v h _ _ (by
    rewrite [Shape.rowMajor_val_three, Shape.rowMajor_val_four]
    show (c.val * 4 + p.val) * 256 + (q.val * 64 + r.val) = ((c.val * 4 + p.val) * 4 + q.val) * 64 + r.val
    omega)

/-- Rows regrouped: row r of group p of [16, 4, 64, 256] is row p * 64 + r of [16, 256, 256]. -/
theorem cast_rows (v : (⟨3, ![16, 256, 256]⟩ : Shape).Idx → α) (h : (⟨3, ![16, 256, 256]⟩ : Shape).ShapeCasts ⟨4, ![16, 4, 64, 256]⟩)
    (c : Fin 16) (p : Fin 4) (r : Fin 64) (w : Fin 256) :
    shapeCast ⟨4, ![16, 4, 64, 256]⟩ v h (ix4 c p r w) = v (ix3 c (pix p r) w) :=
  shapeCast_apply v h _ _ (by
    rewrite [Shape.rowMajor_val_three, Shape.rowMajor_val_four]
    show (c.val * 256 + (p.val * 64 + r.val)) * 256 + w.val = ((c.val * 4 + p.val) * 64 + r.val) * 256 + w.val
    omega)

/-- Dropping the block's leading unit axis: [1, 16, 256, 256] as [16, 256, 256]. -/
theorem cast_unlead (v : (⟨4, ![1, 16, 256, 256]⟩ : Shape).Idx → α)
    (h : (⟨4, ![1, 16, 256, 256]⟩ : Shape).ShapeCasts ⟨3, ![16, 256, 256]⟩) (c : Fin 16) (y w : Fin 256) :
    shapeCast ⟨3, ![16, 256, 256]⟩ v h (ix3 c y w) = v (ix4 (0 : Fin 1) c y w) :=
  shapeCast_apply v h _ _ (by
    rewrite [Shape.rowMajor_val_three, Shape.rowMajor_val_four]
    show ((0 * 16 + c.val) * 256 + y.val) * 256 + w.val = (c.val * 256 + y.val) * 256 + w.val
    omega)

/-! ## The body's two sums, read at coordinates -/

/-- The sum over the 64 rows of a group, at (c, p, w). -/
theorem sum_rows (v : FVec Ideal ⟨4, ![16, 4, 64, 256]⟩ .f32)
    (h : (⟨4, ![16, 4, 64, 256]⟩ : Shape).Reduces [2] ⟨3, ![16, 4, 256]⟩) (hφ : FKind.Formats .f32)
    (hacc : (0x00000000#32 : BitVec 32) = FKind.add.neutral .f32 hφ) (c : Fin 16) (p : Fin 4) (w : Fin 256) :
    multiReduction .add [2] ⟨3, ![16, 4, 256]⟩ v 0x00000000#32 h hφ hacc (ix3 c p w) = ∑ r : Fin 64, v (ix4 c p r w) :=
  (Ideal.multiReduction_add_single v _ h hφ hacc (ix3 c p w)).trans
    (Finset.sum_congr rfl fun r _ => congrArg v (funext fun a => Fin.ext (by
      match a with
      | ⟨0, _⟩ => rfl
      | ⟨1, _⟩ => rfl
      | ⟨2, _⟩ => rfl
      | ⟨3, _⟩ => rfl)))

/-- The sum over the 64 columns of a group, at (c, p, q). -/
theorem sum_cols (v : FVec Ideal ⟨4, ![16, 4, 4, 64]⟩ .f32)
    (h : (⟨4, ![16, 4, 4, 64]⟩ : Shape).Reduces [3] ⟨3, ![16, 4, 4]⟩) (hφ : FKind.Formats .f32)
    (hacc : (0x00000000#32 : BitVec 32) = FKind.add.neutral .f32 hφ) (c : Fin 16) (p q : Fin 4) :
    multiReduction .add [3] ⟨3, ![16, 4, 4]⟩ v 0x00000000#32 h hφ hacc (ix3 c p q) = ∑ r : Fin 64, v (ix4 c p q r) :=
  (Ideal.multiReduction_add_single v _ h hφ hacc (ix3 c p q)).trans
    (Finset.sum_congr rfl fun r _ => congrArg v (funext fun a => Fin.ext (by
      match a with
      | ⟨0, _⟩ => rfl
      | ⟨1, _⟩ => rfl
      | ⟨2, _⟩ => rfl
      | ⟨3, _⟩ => rfl)))

/-! ## The stored value -/

/-- Element (z, c, p, q) of what the body stores: the sum over patch (p, q) of channel c of the loaded block,
    times 1 / 4096. -/
theorem payload_apply (v0 : FVec Ideal S1x16x256x256 .f32) (z : Fin 1) (c : Fin 16) (p q : Fin 4) :
    k0_pay1 (F := Ideal) v0 (ix4 z c p q)
      = (∑ r : Fin 64 × Fin 64, v0 (ix4 (0 : Fin 1) c (pix p r.1) (pix q r.2))) * ((1 / 4096 : ℝ) : EReal) := by
  unfold k0_pay1
  refine (cast_lead _ _ z c p q).trans ?_
  refine (mulf_apply _ _ _).trans ?_
  refine congrArg₂ (· * ·) ?_ ofBits_inv4096
  refine (sum_cols _ _ _ _ c p q).trans ?_
  refine (Finset.sum_congr rfl fun w _ => (cast_cols _ _ c p q w).trans (sum_rows _ _ _ _ c p (pix q w))).trans ?_
  refine (Finset.sum_congr rfl fun w _ => Finset.sum_congr rfl fun y _ =>
    (cast_rows _ _ c p y (pix q w)).trans (cast_unlead _ _ c (pix p y) (pix q w))).trans ?_
  exact sum_cols_rows fun y w => v0 (ix4 (0 : Fin 1) c (pix p y) (pix q w))

end Cert.KernelIdeal.PoolBlock

end
-- ==== Proof.PoolArray.lean ====
/-
  The pooled array after the first region: every patch's mean.

  The first region runs the pooling body once per (batch, group of 16 channels): point t reads block
  (b, k) of the image array (all rows and columns of channels 16 k .. 16 k + 15 of batch b) and writes block (b, k) of
  the [8, 64, 4, 4] result. What the body stores is, element by element, the patch means of the block it read, and
  the block it read is the image restricted to those channels, so what point t writes back is block t of pool of the
  image. The 32 blocks tile the result, hence the whole result array ends at pool of the image.
-/
import proofs.«158542_j55224689492533_1_alg».proof.Proof.Gen.KernelIdeal.Frame
import proofs.«158542_j55224689492533_1_alg».proof.Proof.PoolBlock
import Idealize.ShloMosaic.Lib.Pipeline.Value

set_option maxRecDepth 16384

noncomputable section

open scoped BigOperators

namespace Cert.KernelIdeal.PoolArray

open Idealize.ShloMosaic Idealize.ShloMosaic.TcCoe Idealize.ShloMosaic.ValueIdx Idealize.SL.Sem
open Cert.KernelIdeal Cert.KernelIdeal.Gen Cert.Excite

variable (V : (c : Dev nD) → (b : Ref sig .tc) → Buf (Elt Ideal) ((c : Thread nD τ).loc b))

theorem zero4 : (![0, 0, 0, 0] : Fin 4 → Nat) = fun _ => 0 := funext fun a => by fin_cases a <;> rfl

/-- The image array as the region finds it. -/
abbrev img (c : Dev nD) : FVec Ideal S8x64x256x256 .f32 := V c main_arg0

/-- The two windows' block indices at every grid point: the input block and the output block move together over
    (batch, channel group) and never along the last two axes. -/
theorem idx_facts : ∀ t : Fin cfg0.N,
    win0_0.index t (0 : Fin 4) = win0_1.index t (0 : Fin 4) ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 7 ∧ win0_1.index t (1 : Fin 4) ≤ 3 :=
  (by decide +kernel : ∀ t : Fin grid0.N, _)

/-- Every (batch, channel group) is some grid point's output block. -/
theorem idx_onto : ∀ (b : Fin 8) (k : Fin 4), ∃ t : Fin cfg0.N, win0_1.index t = ![b.val, k.val, 0, 0] :=
  (by decide +kernel : ∀ (b : Fin 8) (k : Fin 4), ∃ t : Fin grid0.N, win0_1.index t = ![b.val, k.val, 0, 0])

/-- What point t writes back is block t of the patch means of the image. -/
theorem flushed_eq (c : Dev nD) (t : Fin cfg0.N) :
    (dat0 V c).flushed 1 t = ((cfg0.win 1).blk t).view.read (Elt Ideal) (pool (img V c)) := by
  show (cfg0.win 1).cut (grid0.coords t) ((dat0 V c).after 1 t) = _
  rw [after0_1]
  unfold out0_1
  rw [View.canon_unit_zero zero4]
  simp only [View.ld_unit_zero (S := S1x16x256x256) zero4]
  obtain ⟨e0, e1, e2, e3, e4, e5, e6, e7⟩ := idx_facts t
  funext j
  obtain ⟨z, cc, p, q, rfl⟩ : ∃ (z : Fin 1) (cc : Fin 16) (p q : Fin 4), j = ix4 z cc p q :=
    ⟨j 0, j 1, j 2, j 3, eq_ix4 j⟩
  have hb : win0_1.index t (0 : Fin 4) < 8 := by omega
  have hk : win0_1.index t (1 : Fin 4) * 16 + cc.val < 64 := by have := cc.isLt; omega
  have hemb : ((cfg0.win 1).blk t).view.emb (ix4 z cc p q)
      = ix4 (⟨win0_1.index t (0 : Fin 4), hb⟩ : Fin 8) (⟨win0_1.index t (1 : Fin 4) * 16 + cc.val, hk⟩ : Fin 64) p q := by
    funext a; apply Fin.ext
    match a with
    | ⟨0, _⟩ => show win0_1.index t (0 : Fin 4) * 1 + 1 * z.val = win0_1.index t (0 : Fin 4); have := z.isLt; omega
    | ⟨1, _⟩ => show win0_1.index t (1 : Fin 4) * 16 + 1 * cc.val = win0_1.index t (1 : Fin 4) * 16 + cc.val; omega
    | ⟨2, _⟩ => show win0_1.index t (2 : Fin 4) * 4 + 1 * p.val = p.val; omega
    | ⟨3, _⟩ => show win0_1.index t (3 : Fin 4) * 4 + 1 * q.val = q.val; omega
  show k0_pay1 (F := Ideal) (iblk0 V c 0 t) (ix4 z cc p q) = pool (img V c) (((cfg0.win 1).blk t).view.emb (ix4 z cc p q))
  refine Eq.trans ?_ (congrArg (pool (img V c)) hemb).symm
  refine (PoolBlock.payload_apply _ z cc p q).trans ?_
  rw [pool_ix4]
  unfold poolAt
  refine congrArg (· * _) (Finset.sum_congr rfl fun r _ => ?_)
  show V c main_arg0 (((cfg0.win 0).blk t).view.emb (ix4 (0 : Fin 1) cc (pix p r.1) (pix q r.2)))
    = V c main_arg0 (ix4 (⟨win0_1.index t (0 : Fin 4), hb⟩ : Fin 8) (⟨win0_1.index t (1 : Fin 4) * 16 + cc.val, hk⟩ : Fin 64) (pix p r.1) (pix q r.2))
  refine congrArg (V c main_arg0) (funext fun a => Fin.ext ?_)
  match a with
  | ⟨0, _⟩ => show win0_0.index t (0 : Fin 4) * 1 + 1 * 0 = win0_1.index t (0 : Fin 4); omega
  | ⟨1, _⟩ => show win0_0.index t (1 : Fin 4) * 16 + 1 * cc.val = win0_1.index t (1 : Fin 4) * 16 + cc.val; omega
  | ⟨2, _⟩ => show win0_0.index t (2 : Fin 4) * 256 + 1 * (pix p r.1).val = (pix p r.1).val; omega
  | ⟨3, _⟩ => show win0_0.index t (3 : Fin 4) * 256 + 1 * (pix q r.2).val = (pix q r.2).val; omega

/-- An index of the result array is in point t's block iff each coordinate is in the block's range on its axis. -/
theorem mem_blk (t : Fin cfg0.N) (i : S8x64x4x4.Idx) :
    i ∈ ((cfg0.win 1).blk t).view.set ↔ ∀ a : Fin 4, win0_1.index t a * S1x16x4x4.size a ≤ (i a).val
      ∧ (i a).val < win0_1.index t a * S1x16x4x4.size a + S1x16x4x4.size a := by
  show i ∈ ((View.whole main_v0).slice (win0_1.rect t)).set ↔ _
  rw [View.set_slice_whole, Rect.mem_set_unit]
  exact Iff.rfl

/-- The output blocks tile the result array: entry (b, ch, p, q) lies in the block of (b, ch / 16). -/
theorem cover (i : S8x64x4x4.Idx) :
    ∃ t : Fin cfg0.N, (cfg0.win 1).flush t = true ∧ i ∈ ((cfg0.win 1).blk t).view.set := by
  have h0 : (i 0).val < 8 := (i 0).isLt
  have h1 : (i 1).val < 64 := (i 1).isLt
  have h2 : (i 2).val < 4 := (i 2).isLt
  have h3 : (i 3).val < 4 := (i 3).isLt
  obtain ⟨t, ht⟩ := idx_onto ⟨(i 0).val, h0⟩ ⟨(i 1).val / 16, by omega⟩
  have q0 : win0_1.index t (0 : Fin 4) = (i 0).val := congrFun ht 0
  have q1 : win0_1.index t (1 : Fin 4) = (i 1).val / 16 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 16 ≤ (i 1).val ∧ (i 1).val < win0_1.index t (1 : Fin 4) * 16 + 16; omega
  | ⟨2, _⟩ => show win0_1.index t (2 : Fin 4) * 4 ≤ (i 2).val ∧ (i 2).val < win0_1.index t (2 : Fin 4) * 4 + 4; omega
  | ⟨3, _⟩ => show win0_1.index t (3 : Fin 4) * 4 ≤ (i 3).val ∧ (i 3).val < win0_1.index t (3 : Fin 4) * 4 + 4; omega

/-- The result array after the first region is the patch means of the image the region found. -/
theorem pooled (c : Dev nD) : (dat0 V c).arrAt 1 cfg0.N = pool (img V c) :=
  (dat0 V c).arrAt_eq_of_cover 1 (pool (img V c)) (fun t _ => flushed_eq V c t) cover

end Cert.KernelIdeal.PoolArray

end
-- ==== Proof.GateBlock.lean ====
/-
  What the gating kernel's body computes, element by element.

  The body loads an image block x : [1, 16, 256, 256] and a gate block g : [1, 16, 4, 4] and, for each of the four
  row groups i, stores rows 64 i .. 64 i + 63 of the output block: rows of x times row i of g with each of its four
  entries repeated over the 64 columns of its patch and then over the 64 rows. The repetition is spelt with shape
  casts and broadcasts; read at (c, r, w) it is g at (c, i, w / 64). So the four stores together leave, at every
  (c, h, w), the pixel times the gate of the patch (h / 64, w / 64) it lies in.
-/
import proofs.«158542_j55224689492533_1_alg».proof.Proof.Gen.KernelIdeal.Frame
import proofs.«158542_j55224689492533_1_alg».proof.Proof.PoolBlock
import Idealize.ShloMosaic.Lib.Pipeline.Value

set_option maxRecDepth 16384

noncomputable section

open scoped BigOperators

namespace Cert.KernelIdeal.GateBlock

open Idealize.ShloMosaic Idealize.ShloMosaic.ValueIdx Cert.KernelIdeal Cert.KernelIdeal.Gen Cert.Excite

variable {α : Type}

/-! ## The gate row repeated over its patches' columns and rows, read at coordinates -/

/-- Row i of the gates, a [16, 1, 4] slice. -/
theorem slice_gate_row (v : (⟨3, ![16, 4, 4]⟩ : Shape).Idx → α) (off : Fin 3 → Nat) (i : Fin 4) (ho : off = ![0, i.val, 0])
    (h : (⟨3, ![16, 4, 4]⟩ : Shape).Slices off ⟨3, ![16, 1, 4]⟩) (c : Fin 16) (z : Fin 1) (q : Fin 4) :
    extractStridedSlice ⟨3, ![16, 1, 4]⟩ off v h (ix3 c z q) = v (ix3 c i q) := by
  subst ho
  refine extractStridedSlice_apply _ v h _ _ fun a => ?_
  match a with
  | ⟨0, _⟩ => show c.val = 0 + c.val; omega
  | ⟨1, _⟩ => show i.val = i.val + z.val; have := z.isLt; omega
  | ⟨2, _⟩ => show q.val = 0 + q.val; omega

theorem cast_16x1x4 (v : (⟨3, ![16, 1, 4]⟩ : Shape).Idx → α) (h : (⟨3, ![16, 1, 4]⟩ : Shape).ShapeCasts ⟨2, ![16, 4]⟩)
    (c : Fin 16) (q : Fin 4) : shapeCast ⟨2, ![16, 4]⟩ v h (ix2 c q) = v (ix3 c (0 : Fin 1) q) :=
  shapeCast_apply v h _ _ (by
    rewrite [Shape.rowMajor_val_three, Shape.rowMajor_val_two]
    show (c.val * 1 + 0) * 4 + q.val = c.val * 4 + q.val
    omega)

theorem cast_16x4 (v : (⟨2, ![16, 4]⟩ : Shape).Idx → α) (h : (⟨2, ![16, 4]⟩ : Shape).ShapeCasts ⟨3, ![16, 4, 1]⟩)
    (c : Fin 16) (q : Fin 4) (z : Fin 1) : shapeCast ⟨3, ![16, 4, 1]⟩ v h (ix3 c q z) = v (ix2 c q) :=
  shapeCast_apply v h _ _ (by
    rewrite [Shape.rowMajor_val_three, Shape.rowMajor_val_two]
    show c.val * 4 + q.val = (c.val * 4 + q.val) * 1 + z.val
    have := z.isLt; omega)

/-- Each gate repeated over the 64 columns of its patch. -/
theorem bcast_cols (v : (⟨3, ![16, 4, 1]⟩ : Shape).Idx → α) (h : (⟨3, ![16, 4, 1]⟩ : Shape).Broadcasts ⟨3, ![16, 4, 64]⟩)
    (c : Fin 16) (q : Fin 4) (r : Fin 64) : broadcastTo ⟨3, ![16, 4, 64]⟩ v h (ix3 c q r) = v (ix3 c q (0 : Fin 1)) := by
  refine broadcastTo_apply v h _ _ fun a => ?_
  match a with
  | ⟨0, _⟩ => show c.val = if (16 : Nat) = 1 then 0 else c.val; rw [if_neg (by decide)]
  | ⟨1, _⟩ => show q.val = if (4 : Nat) = 1 then 0 else q.val; rw [if_neg (by decide)]
  | ⟨2, _⟩ => show 0 = if (1 : Nat) = 1 then 0 else r.val; rw [if_pos rfl]

/-- The four patches' columns laid side by side: column w of [16, 256] is column w mod 64 of patch w / 64. -/
theorem cast_16x4x64 (v : (⟨3, ![16, 4, 64]⟩ : Shape).Idx → α) (h : (⟨3, ![16, 4, 64]⟩ : Shape).ShapeCasts ⟨2, ![16, 256]⟩)
    (c : Fin 16) (w : Fin 256) : shapeCast ⟨2, ![16, 256]⟩ v h (ix2 c w) = v (ix3 c (patch w) (within w)) :=
  shapeCast_apply v h _ _ (by
    rewrite [Shape.rowMajor_val_three, Shape.rowMajor_val_two]
    show (c.val * 4 + w.val / 64) * 64 + w.val % 64 = c.val * 256 + w.val
    omega)

theorem cast_16x256 (v : (⟨2, ![16, 256]⟩ : Shape).Idx → α) (h : (⟨2, ![16, 256]⟩ : Shape).ShapeCasts ⟨3, ![16, 1, 256]⟩)
    (c : Fin 16) (z : Fin 1) (w : Fin 256) : shapeCast ⟨3, ![16, 1, 256]⟩ v h (ix3 c z w) = v (ix2 c w) :=
  shapeCast_apply v h _ _ (by
    rewrite [Shape.rowMajor_val_three, Shape.rowMajor_val_two]
    show c.val * 256 + w.val = (c.val * 1 + z.val) * 256 + w.val
    have := z.isLt; omega)

/-- The row of 256 gates repeated over the 64 rows of the group. -/
theorem bcast_rows (v : (⟨3, ![16, 1, 256]⟩ : Shape).Idx → α) (h : (⟨3, ![16, 1, 256]⟩ : Shape).Broadcasts ⟨3, ![16, 64, 256]⟩)
    (c : Fin 16) (r : Fin 64) (w : Fin 256) : broadcastTo ⟨3, ![16, 64, 256]⟩ v h (ix3 c r w) = v (ix3 c (0 : Fin 1) w) := by
  refine broadcastTo_apply v h _ _ fun a => ?_
  match a with
  | ⟨0, _⟩ => show c.val = if (16 : Nat) = 1 then 0 else c.val; rw [if_neg (by decide)]
  | ⟨1, _⟩ => show 0 = if (1 : Nat) = 1 then 0 else r.val; rw [if_pos rfl]
  | ⟨2, _⟩ => show w.val = if (256 : Nat) = 1 then 0 else w.val; rw [if_neg (by decide)]

/-- Rows 64 i .. 64 i + 63 of the image block. -/
theorem slice_rows (v : (⟨3, ![16, 256, 256]⟩ : Shape).Idx → α) (off : Fin 3 → Nat) (i : Fin 4) (ho : off = ![0, i.val * 64, 0])
    (h : (⟨3, ![16, 256, 256]⟩ : Shape).Slices off ⟨3, ![16, 64, 256]⟩) (c : Fin 16) (r : Fin 64) (w : Fin 256) :
    extractStridedSlice ⟨3, ![16, 64, 256]⟩ off v h (ix3 c r w) = v (ix3 c (pix i r) w) := by
  subst ho
  refine extractStridedSlice_apply _ v h _ _ fun a => ?_
  match a with
  | ⟨0, _⟩ => show c.val = 0 + c.val; omega
  | ⟨1, _⟩ => show i.val * 64 + r.val = i.val * 64 + r.val; rfl
  | ⟨2, _⟩ => show w.val = 0 + w.val; omega

theorem cast_lead_rows (v : (⟨3, ![16, 64, 256]⟩ : Shape).Idx → α)
    (h : (⟨3, ![16, 64, 256]⟩ : Shape).ShapeCasts ⟨4, ![1, 16, 64, 256]⟩) (z : Fin 1) (c : Fin 16) (r : Fin 64) (w : Fin 256) :
    shapeCast ⟨4, ![1, 16, 64, 256]⟩ v h (ix4 z c r w) = v (ix3 c r w) :=
  shapeCast_apply v h _ _ (by
    rewrite [Shape.rowMajor_val_three, Shape.rowMajor_val_four]
    show (c.val * 64 + r.val) * 256 + w.val = ((z.val * 16 + c.val) * 64 + r.val) * 256 + w.val
    have := z.isLt; omega)

theorem cast_unlead_gates (v : (⟨4, ![1, 16, 4, 4]⟩ : Shape).Idx → α)
    (h : (⟨4, ![1, 16, 4, 4]⟩ : Shape).ShapeCasts ⟨3, ![16, 4, 4]⟩) (c : Fin 16) (p q : Fin 4) :
    shapeCast ⟨3, ![16, 4, 4]⟩ v h (ix3 c p q) = v (ix4 (0 : Fin 1) c p q) :=
  shapeCast_apply v h _ _ (by
    rewrite [Shape.rowMajor_val_three, Shape.rowMajor_val_four]
    show ((0 * 16 + c.val) * 4 + p.val) * 4 + q.val = (c.val * 4 + p.val) * 4 + q.val
    omega)

/-! ## One store's value -/

/-- The value stored for row group i, at (z, c, r, w): pixel (c, 64 i + r, w) of the block times gate (c, i, w / 64).
    Stated over the operation tree all four stores share, with the two slice offsets as parameters. -/
theorem piece_apply (x3 : FVec Ideal ⟨3, ![16, 256, 256]⟩ .f32) (g3 : FVec Ideal ⟨3, ![16, 4, 4]⟩ .f32) (i : Fin 4)
    (offx offg : Fin 3 → Nat) (hox : offx = ![0, i.val * 64, 0]) (hog : offg = ![0, i.val, 0])
    (hsx : (⟨3, ![16, 256, 256]⟩ : Shape).Slices offx ⟨3, ![16, 64, 256]⟩)
    (hsg : (⟨3, ![16, 4, 4]⟩ : Shape).Slices offg ⟨3, ![16, 1, 4]⟩)
    (h1 : (⟨3, ![16, 1, 4]⟩ : Shape).ShapeCasts ⟨2, ![16, 4]⟩) (h2 : (⟨2, ![16, 4]⟩ : Shape).ShapeCasts ⟨3, ![16, 4, 1]⟩)
    (h3 : (⟨3, ![16, 4, 1]⟩ : Shape).ShapeCasts ⟨3, ![16, 4, 1]⟩) (hb1 : (⟨3, ![16, 4, 1]⟩ : Shape).Broadcasts ⟨3, ![16, 4, 64]⟩)
    (h4 : (⟨3, ![16, 4, 64]⟩ : Shape).ShapeCasts ⟨2, ![16, 256]⟩) (h5 : (⟨2, ![16, 256]⟩ : Shape).ShapeCasts ⟨3, ![16, 1, 256]⟩)
    (h6 : (⟨3, ![16, 1, 256]⟩ : Shape).ShapeCasts ⟨3, ![16, 1, 256]⟩)
    (hb2 : (⟨3, ![16, 1, 256]⟩ : Shape).Broadcasts ⟨3, ![16, 64, 256]⟩)
    (hc : (⟨3, ![16, 64, 256]⟩ : Shape).ShapeCasts ⟨4, ![1, 16, 64, 256]⟩)
    (z : Fin 1) (c : Fin 16) (r : Fin 64) (w : Fin 256) :
    shapeCast ⟨4, ![1, 16, 64, 256]⟩ (mulf (extractStridedSlice ⟨3, ![16, 64, 256]⟩ offx x3 hsx)
      (broadcastTo ⟨3, ![16, 64, 256]⟩ (shapeCast ⟨3, ![16, 1, 256]⟩ (shapeCast ⟨3, ![16, 1, 256]⟩ (shapeCast ⟨2, ![16, 256]⟩
        (broadcastTo ⟨3, ![16, 4, 64]⟩ (shapeCast ⟨3, ![16, 4, 1]⟩ (shapeCast ⟨3, ![16, 4, 1]⟩ (shapeCast ⟨2, ![16, 4]⟩
          (extractStridedSlice ⟨3, ![16, 1, 4]⟩ offg g3 hsg) h1) h2) h3) hb1) h4) h5) h6) hb2)) hc (ix4 z c r w)
      = x3 (ix3 c (pix i r) w) * g3 (ix3 c i (patch w)) := by
  refine (cast_lead_rows _ hc z c r w).trans ?_
  refine (mulf_apply _ _ _).trans ?_
  refine congrArg₂ (· * ·) (slice_rows x3 offx i hox hsx c r w) ?_
  refine (bcast_rows _ hb2 c r w).trans ?_
  rw [shapeCast_self]
  refine (cast_16x256 _ h5 c 0 w).trans ?_
  refine (cast_16x4x64 _ h4 c w).trans ?_
  refine (bcast_cols _ hb1 c (patch w) (within w)).trans ?_
  rw [shapeCast_self]
  refine (cast_16x4 _ h2 c (patch w) 0).trans ?_
  refine (cast_16x1x4 _ h1 c (patch w)).trans ?_
  exact slice_gate_row g3 offg i hog hsg c 0 (patch w)

/-! ## The output block -/

/-- The gated block at explicit coordinates ... -/
def blockAt (x0 : FVec Ideal S1x16x256x256 .f32) (x1 : FVec Ideal S1x16x4x4 .f32) (z : Fin 1) (c : Fin 16) (h w : Fin 256) : EReal :=
  x0 (ix4 z c h w) * x1 (ix4 (0 : Fin 1) c (patch h) (patch w))
/-- ... and as one function of the block index. -/
def block (x0 : FVec Ideal S1x16x256x256 .f32) (x1 : FVec Ideal S1x16x4x4 .f32) : FVec Ideal S1x16x256x256 .f32 :=
  fun y => blockAt x0 x1 (y 0) (y 1) (y 2) (y 3)

theorem block_ix4 (x0 : FVec Ideal S1x16x256x256 .f32) (x1 : FVec Ideal S1x16x4x4 .f32) (z : Fin 1) (c : Fin 16) (h w : Fin 256) :
    block x0 x1 (ix4 z c h w) = blockAt x0 x1 z c h w := rfl

theorem zero4 : (![0, 0, 0, 0] : Fin 4 → Nat) = fun _ => 0 := funext fun a => by fin_cases a <;> rfl

/-- The store of row group i, read at the block index it lands on. -/
theorem piece_block (x0 : FVec Ideal S1x16x256x256 .f32) (x1 : FVec Ideal S1x16x4x4 .f32) (i : Fin 4)
    (z : Fin 1) (c : Fin 16) (r : Fin 64) (w : Fin 256) (pay : EReal)
    (hpay : pay = (shapeCast S16x256x256 x0 shapeCasts_S1x16x256x256_S16x256x256) (ix3 c (pix i r) w)
      * (shapeCast S16x4x4 x1 shapeCasts_S1x16x4x4_S16x4x4) (ix3 c i (patch w))) :
    pay = block x0 x1 (ix4 z c (pix i r) w) := by
  rw [hpay, block_ix4]
  unfold blockAt
  rw [patch_pix]
  have hz : z = 0 := Fin.ext (by have := z.isLt; omega)
  subst hz
  exact congrArg₂ (· * ·) (PoolBlock.cast_unlead _ _ c (pix i r) w) (cast_unlead_gates _ _ c i (patch w))

/-- What the body leaves in the output block: every pixel of the image block times the gate of its patch. -/
theorem out_eq (x0 : FVec Ideal S1x16x256x256 .f32) (x1 : FVec Ideal S1x16x4x4 .f32) :
    out1_2 (F := Ideal) x0 x1 = block x0 x1 := by
  unfold out1_2
  simp only [View.ld_unit_zero (S := S1x16x256x256) zero4, View.ld_unit_zero (S := S1x16x4x4) zero4]
  funext y
  refine View.canon_apply_of_pieces (Val := Elt Ideal) (block x0 x1) _ ?_ y (cover1_2 _ _ _ _ y)
  intro pc hpc
  simp only [List.mem_cons, List.not_mem_nil, or_false] at hpc
  rcases hpc with rfl | rfl | rfl | rfl
  · intro x
    obtain ⟨z, c, r, w, rfl⟩ : ∃ (z : Fin 1) (c : Fin 16) (r : Fin 64) (w : Fin 256), x = ix4 z c r w :=
      ⟨x 0, x 1, x 2, x 3, eq_ix4 x⟩
    have hemb : r1_5.emb (ix4 z c r w) = ix4 z c (pix 3 r) w := by
      funext a; apply Fin.ext
      match a with
      | ⟨0, _⟩ => show 0 + 1 * z.val = z.val; omega
      | ⟨1, _⟩ => show 0 + 1 * c.val = c.val; omega
      | ⟨2, _⟩ => show 192 + 1 * r.val = 3 * 64 + r.val; omega
      | ⟨3, _⟩ => show 0 + 1 * w.val = w.val; omega
    show k1_pay2 (F := Ideal) (k1_pay3 x0) (k1_pay4 x1) (ix4 z c r w) = block x0 x1 (r1_5.emb (ix4 z c r w))
    rw [hemb]
    refine piece_block x0 x1 3 z c r w _ ?_
    unfold k1_pay2 k1_pay3 k1_pay4
    exact piece_apply _ _ 3 _ _ rfl rfl _ _ _ _ _ _ _ _ _ _ _ z c r w
  · intro x
    obtain ⟨z, c, r, w, rfl⟩ : ∃ (z : Fin 1) (c : Fin 16) (r : Fin 64) (w : Fin 256), x = ix4 z c r w :=
      ⟨x 0, x 1, x 2, x 3, eq_ix4 x⟩
    have hemb : r1_4.emb (ix4 z c r w) = ix4 z c (pix 2 r) w := by
      funext a; apply Fin.ext
      match a with
      | ⟨0, _⟩ => show 0 + 1 * z.val = z.val; omega
      | ⟨1, _⟩ => show 0 + 1 * c.val = c.val; omega
      | ⟨2, _⟩ => show 128 + 1 * r.val = 2 * 64 + r.val; omega
      | ⟨3, _⟩ => show 0 + 1 * w.val = w.val; omega
    show k1_pay1 (F := Ideal) (k1_pay7 x0) (k1_pay8 x1) (ix4 z c r w) = block x0 x1 (r1_4.emb (ix4 z c r w))
    rw [hemb]
    refine piece_block x0 x1 2 z c r w _ ?_
    unfold k1_pay1 k1_pay7 k1_pay8 k1_pay3 k1_pay4
    exact piece_apply _ _ 2 _ _ rfl rfl _ _ _ _ _ _ _ _ _ _ _ z c r w
  · intro x
    obtain ⟨z, c, r, w, rfl⟩ : ∃ (z : Fin 1) (c : Fin 16) (r : Fin 64) (w : Fin 256), x = ix4 z c r w :=
      ⟨x 0, x 1, x 2, x 3, eq_ix4 x⟩
    have hemb : r1_3.emb (ix4 z c r w) = ix4 z c (pix 1 r) w := by
      funext a; apply Fin.ext
      match a with
      | ⟨0, _⟩ => show 0 + 1 * z.val = z.val; omega
      | ⟨1, _⟩ => show 0 + 1 * c.val = c.val; omega
      | ⟨2, _⟩ => show 64 + 1 * r.val = 1 * 64 + r.val; omega
      | ⟨3, _⟩ => show 0 + 1 * w.val = w.val; omega
    show k1_pay6 (F := Ideal) x0 x1 (ix4 z c r w) = block x0 x1 (r1_3.emb (ix4 z c r w))
    rw [hemb]
    refine piece_block x0 x1 1 z c r w _ ?_
    unfold k1_pay6 k1_pay3 k1_pay4
    exact piece_apply _ _ 1 _ _ rfl rfl _ _ _ _ _ _ _ _ _ _ _ z c r w
  · intro x
    obtain ⟨z, c, r, w, rfl⟩ : ∃ (z : Fin 1) (c : Fin 16) (r : Fin 64) (w : Fin 256), x = ix4 z c r w :=
      ⟨x 0, x 1, x 2, x 3, eq_ix4 x⟩
    have hemb : r1_2.emb (ix4 z c r w) = ix4 z c (pix 0 r) w := by
      funext a; apply Fin.ext
      match a with
      | ⟨0, _⟩ => show 0 + 1 * z.val = z.val; omega
      | ⟨1, _⟩ => show 0 + 1 * c.val = c.val; omega
      | ⟨2, _⟩ => show 0 + 1 * r.val = 0 * 64 + r.val; omega
      | ⟨3, _⟩ => show 0 + 1 * w.val = w.val; omega
    show k1_pay5 (F := Ideal) x0 x1 (ix4 z c r w) = block x0 x1 (r1_2.emb (ix4 z c r w))
    rw [hemb]
    refine piece_block x0 x1 0 z c r w _ ?_
    unfold k1_pay5 k1_pay3 k1_pay4
    exact piece_apply _ _ 0 _ _ rfl rfl _ _ _ _ _ _ _ _ _ _ _ z c r w

end Cert.KernelIdeal.GateBlock

end
-- ==== Proof.GateArray.lean ====
/-
  The result array after the second region: every pixel gated.

  The second region runs the gating body once per (batch, group of 16 channels): point t reads block (b, k) of the
  image array and block (b, k) of the [8, 64, 4, 4] gates array, and writes block (b, k) of the result. The body leaves
  every pixel of the image block times the gate of its patch; the two blocks it read are the two arrays restricted to
  those channels, so what point t writes back is block t of gate of the image and the gates. The 32 blocks tile the
  result array.
-/
import proofs.«158542_j55224689492533_1_alg».proof.Proof.Gen.KernelIdeal.Frame
import proofs.«158542_j55224689492533_1_alg».proof.Proof.GateBlock
import Idealize.ShloMosaic.Lib.Pipeline.Value

set_option maxRecDepth 16384

noncomputable section

open scoped BigOperators

namespace Cert.KernelIdeal.GateArray

open Idealize.ShloMosaic Idealize.ShloMosaic.TcCoe Idealize.ShloMosaic.ValueIdx Idealize.SL.Sem
open Cert.KernelIdeal Cert.KernelIdeal.Gen Cert.Excite

variable (V : (c : Dev nD) → (b : Ref sig .tc) → Buf (Elt Ideal) ((c : Thread nD τ).loc b))

/-- The image array and the gates array as the region finds them. -/
abbrev img (c : Dev nD) : FVec Ideal S8x64x256x256 .f32 := V c main_arg0
abbrev gts (c : Dev nD) : FVec Ideal S8x64x4x4 .f32 := V c main_v23

/-- The three windows' block indices at every grid point: all move together over (batch, channel group) and never
    along the last two axes. -/
theorem idx_facts : ∀ t : Fin cfg1.N,
    win1_0.index t (0 : Fin 4) = win1_2.index t (0 : Fin 4) ∧ win1_0.index t (1 : Fin 4) = win1_2.index t (1 : Fin 4)
    ∧ win1_0.index t (2 : Fin 4) = 0 ∧ win1_0.index t (3 : Fin 4) = 0
    ∧ win1_1.index t (0 : Fin 4) = win1_2.index t (0 : Fin 4) ∧ win1_1.index t (1 : Fin 4) = win1_2.index t (1 : Fin 4)
    ∧ win1_1.index t (2 : Fin 4) = 0 ∧ win1_1.index t (3 : Fin 4) = 0
    ∧ win1_2.index t (2 : Fin 4) = 0 ∧ win1_2.index t (3 : Fin 4) = 0
    ∧ win1_2.index t (0 : Fin 4) ≤ 7 ∧ win1_2.index t (1 : Fin 4) ≤ 3 :=
  (by decide +kernel : ∀ t : Fin grid1.N, _)

/-- Every (batch, channel group) is some grid point's output block. -/
theorem idx_onto : ∀ (b : Fin 8) (k : Fin 4), ∃ t : Fin cfg1.N, win1_2.index t = ![b.val, k.val, 0, 0] :=
  (by decide +kernel : ∀ (b : Fin 8) (k : Fin 4), ∃ t : Fin grid1.N, win1_2.index t = ![b.val, k.val, 0, 0])

/-- What point t writes back is block t of the gated image. -/
theorem flushed_eq (c : Dev nD) (t : Fin cfg1.N) :
    (dat1 V c).flushed 2 t = ((cfg1.win 2).blk t).view.read (Elt Ideal) (gate (img V c) (gts V c)) := by
  show (cfg1.win 2).cut (grid1.coords t) ((dat1 V c).after 2 t) = _
  rw [after1_2, GateBlock.out_eq]
  obtain ⟨e0, e1, e2, e3, e4, e5, e6, e7, e8, e9, e10, e11⟩ := idx_facts t
  funext j
  obtain ⟨z, cc, h, w, rfl⟩ : ∃ (z : Fin 1) (cc : Fin 16) (h w : Fin 256), j = ix4 z cc h w :=
    ⟨j 0, j 1, j 2, j 3, eq_ix4 j⟩
  have hz : z.val = 0 := by have := z.isLt; omega
  have hb : win1_2.index t (0 : Fin 4) < 8 := by omega
  have hk : win1_2.index t (1 : Fin 4) * 16 + cc.val < 64 := by have := cc.isLt; omega
  have hemb : ((cfg1.win 2).blk t).view.emb (ix4 z cc h w)
      = ix4 (⟨win1_2.index t (0 : Fin 4), hb⟩ : Fin 8) (⟨win1_2.index t (1 : Fin 4) * 16 + cc.val, hk⟩ : Fin 64) h w := by
    funext a; apply Fin.ext
    match a with
    | ⟨0, _⟩ => show win1_2.index t (0 : Fin 4) * 1 + 1 * z.val = win1_2.index t (0 : Fin 4); omega
    | ⟨1, _⟩ => show win1_2.index t (1 : Fin 4) * 16 + 1 * cc.val = win1_2.index t (1 : Fin 4) * 16 + cc.val; omega
    | ⟨2, _⟩ => show win1_2.index t (2 : Fin 4) * 256 + 1 * h.val = h.val; omega
    | ⟨3, _⟩ => show win1_2.index t (3 : Fin 4) * 256 + 1 * w.val = w.val; omega
  show GateBlock.block (iblk1 V c 0 t) (iblk1 V c 1 t) (ix4 z cc h w)
    = gate (img V c) (gts V c) (((cfg1.win 2).blk t).view.emb (ix4 z cc h w))
  refine Eq.trans ?_ (congrArg (gate (img V c) (gts V c)) hemb).symm
  rw [GateBlock.block_ix4, gate_ix4]
  unfold GateBlock.blockAt gateAt
  refine congrArg₂ (· * ·) ?_ ?_
  · show V c main_arg0 (((cfg1.win 0).blk t).view.emb (ix4 z cc h w))
      = V c main_arg0 (ix4 (⟨win1_2.index t (0 : Fin 4), hb⟩ : Fin 8) (⟨win1_2.index t (1 : Fin 4) * 16 + cc.val, hk⟩ : Fin 64) h w)
    refine congrArg (V c main_arg0) (funext fun a => Fin.ext ?_)
    match a with
    | ⟨0, _⟩ => show win1_0.index t (0 : Fin 4) * 1 + 1 * z.val = win1_2.index t (0 : Fin 4); omega
    | ⟨1, _⟩ => show win1_0.index t (1 : Fin 4) * 16 + 1 * cc.val = win1_2.index t (1 : Fin 4) * 16 + cc.val; omega
    | ⟨2, _⟩ => show win1_0.index t (2 : Fin 4) * 256 + 1 * h.val = h.val; omega
    | ⟨3, _⟩ => show win1_0.index t (3 : Fin 4) * 256 + 1 * w.val = w.val; omega
  · show V c main_v23 (((cfg1.win 1).blk t).view.emb (ix4 (0 : Fin 1) cc (patch h) (patch w)))
      = V c main_v23 (ix4 (⟨win1_2.index t (0 : Fin 4), hb⟩ : Fin 8) (⟨win1_2.index t (1 : Fin 4) * 16 + cc.val, hk⟩ : Fin 64) (patch h) (patch w))
    refine congrArg (V c main_v23) (funext fun a => Fin.ext ?_)
    match a with
    | ⟨0, _⟩ => show win1_1.index t (0 : Fin 4) * 1 + 1 * 0 = win1_2.index t (0 : Fin 4); omega
    | ⟨1, _⟩ => show win1_1.index t (1 : Fin 4) * 16 + 1 * cc.val = win1_2.index t (1 : Fin 4) * 16 + cc.val; omega
    | ⟨2, _⟩ => show win1_1.index t (2 : Fin 4) * 4 + 1 * (patch h).val = (patch h).val; omega
    | ⟨3, _⟩ => show win1_1.index t (3 : Fin 4) * 4 + 1 * (patch w).val = (patch w).val; omega

/-- An index of the result array is in point t's block iff each coordinate is in the block's range on its axis. -/
theorem mem_blk (t : Fin cfg1.N) (i : S8x64x256x256.Idx) :
    i ∈ ((cfg1.win 2).blk t).view.set ↔ ∀ a : Fin 4, win1_2.index t a * S1x16x256x256.size a ≤ (i a).val
      ∧ (i a).val < win1_2.index t a * S1x16x256x256.size a + S1x16x256x256.size a := by
  show i ∈ ((View.whole main_v24).slice (win1_2.rect t)).set ↔ _
  rw [View.set_slice_whole, Rect.mem_set_unit]
  exact Iff.rfl

/-- The output blocks tile the result array: pixel (b, ch, h, w) lies in the block of (b, ch / 16). -/
theorem cover (i : S8x64x256x256.Idx) :
    ∃ t : Fin cfg1.N, (cfg1.win 2).flush t = true ∧ i ∈ ((cfg1.win 2).blk t).view.set := by
  have h0 : (i 0).val < 8 := (i 0).isLt
  have h1 : (i 1).val < 64 := (i 1).isLt
  have h2 : (i 2).val < 256 := (i 2).isLt
  have h3 : (i 3).val < 256 := (i 3).isLt
  obtain ⟨t, ht⟩ := idx_onto ⟨(i 0).val, h0⟩ ⟨(i 1).val / 16, by omega⟩
  have q0 : win1_2.index t (0 : Fin 4) = (i 0).val := congrFun ht 0
  have q1 : win1_2.index t (1 : Fin 4) = (i 1).val / 16 := congrFun ht 1
  have q2 : win1_2.index t (2 : Fin 4) = 0 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 16 ≤ (i 1).val ∧ (i 1).val < win1_2.index t (1 : Fin 4) * 16 + 16; omega
  | ⟨2, _⟩ => show win1_2.index t (2 : Fin 4) * 256 ≤ (i 2).val ∧ (i 2).val < win1_2.index t (2 : Fin 4) * 256 + 256; omega
  | ⟨3, _⟩ => show win1_2.index t (3 : Fin 4) * 256 ≤ (i 3).val ∧ (i 3).val < win1_2.index t (3 : Fin 4) * 256 + 256; omega

/-- The result array after the second region is the image gated by the gates array, both as the region found them. -/
theorem gated (c : Dev nD) : (dat1 V c).arrAt 2 cfg1.N = gate (img V c) (gts V c) :=
  (dat1 V c).arrAt_eq_of_cover 2 (gate (img V c) (gts V c)) (fun t _ => flushed_eq V c t) cover

end Cert.KernelIdeal.GateArray

end
-- ==== Proof.HostChain.lean ====
/-
  The small dense network between the two regions, as one function of the pooled means and the four weight arrays.

  @main turns the pooled [8, 64, 4, 4] array into the gates array with host operations only: the means are laid out
  as 8 rows of 1024 features (patch-major, channel-minor), a first dense layer with bias gives 8 x 256 hidden values
  x, each passed through x * tanh (softplus x), a second dense layer with bias and a logistic function 1 / (1 + exp (-y))
  give 8 x 1024 values, laid back out as [8, 64, 4, 4]. The reference spells the same operations on its own pooled
  means, so the network is carried as ONE function, gatesOf, and never opened: only its arguments are compared.
-/
import proofs.«158542_j55224689492533_1_alg».proof.Proof.Gen.KernelIdeal.Frame
import Idealize.ShloMosaic.Lib.StableHlo.Run

set_option maxRecDepth 16384

noncomputable section

namespace Cert.KernelIdeal.HostChain

open Idealize.ShloMosaic Idealize.ShloMosaic.TcCoe Idealize.SL.Sem Idealize.ShloMosaic.StableHlo
open Cert.KernelIdeal Cert.KernelIdeal.Gen

variable {F : FTy → Type} [FloatOps F]

/-- The first dense layer with its bias: the hidden pre-activations. -/
def hidden (P : FVec F S8x64x4x4 .f32) (rw : FVec F S256x1024 .f32) (rb : FVec F S256 .f32) : FVec F S8x256 .f32 :=
  addf (Host.dotGeneral dot_S8x1024_S1024x256_S8x256_1_0_0_1_n_n none
      (shapeCast S8x1024 (transpose S8x4x4x64 [0, 2, 3, 1] P transposes_S8x64x4x4_S8x4x4x64_0_2_3_1) shapeCasts_S8x4x4x64_S8x1024)
      (transpose S1024x256 [1, 0] rw transposes_S256x1024_S1024x256_1_0))
    (broadcastInDim S8x256 ![0, 1] bcast_S1x256_S8x256_0_1 (broadcastInDim S1x256 ![1] bcast_S256_S1x256_1 rb))

/-- The array of zeros softplus compares and adds with. -/
def zeros : FVec F S8x256 .f32 := broadcastInDim S8x256 ![] bcast_S_S8x256 (constant S_ .f32 0x00000000#32)

/-- The softplus function log (1 + exp x), written as max x 0 + log1p (exp (-|x|)) under a guard x - 0 ≠ x - 0 that no
    extended real passes. -/
def softplus (X : FVec F S8x256 .f32) : FVec F S8x256 .f32 :=
  select (cmpf .une (subf X zeros) (subf X zeros)) (addf X zeros)
    (addf (maximumf X zeros) (Host.log1p (Host.exp (Host.negf (Host.absf (subf X zeros))))))

/-- The array of ones of the logistic function. -/
def ones : FVec F S8x1024 .f32 := broadcastInDim S8x1024 ![] bcast_S_S8x1024 (constant S_ .f32 0x3F800000#32)

/-- From the hidden pre-activations to the gates: the activation, the second dense layer with its bias, the logistic
    function, and the layout back to [8, 64, 4, 4]. -/
def fromHidden (X : FVec F S8x256 .f32) (ew : FVec F S1024x256 .f32) (eb : FVec F S1024 .f32) : FVec F S8x64x4x4 .f32 :=
  transpose S8x64x4x4 [0, 3, 1, 2]
    (shapeCast S8x4x4x64
      (Host.divf ones (addf ones (Host.exp (Host.negf
        (addf (Host.dotGeneral dot_S8x256_S256x1024_S8x1024_1_0_0_1_n_n none (mulf X (Host.tanh (softplus X)))
            (transpose S256x1024 [1, 0] ew transposes_S1024x256_S256x1024_1_0))
          (broadcastInDim S8x1024 ![0, 1] bcast_S1x1024_S8x1024_0_1 (broadcastInDim S1x1024 ![1] bcast_S1024_S1x1024_1 eb)))))))
      shapeCasts_S8x1024_S8x4x4x64)
    transposes_S8x4x4x64_S8x64x4x4_0_3_1_2

/-- The whole network: pooled means and the four weight arrays to gates. -/
def gatesOf (P : FVec F S8x64x4x4 .f32) (rw : FVec F S256x1024 .f32) (rb : FVec F S256 .f32)
    (ew : FVec F S1024x256 .f32) (eb : FVec F S1024 .f32) : FVec F S8x64x4x4 .f32 :=
  fromHidden (hidden P rw rb) ew eb

variable (m : (ℓ : Loc nD τ sig) → Buf (Elt F) ℓ) (ρ : Dev nD → PrngReg)

/-- The gates array as the second region finds it is the network of what the first region left in the pooled array
    and of the four weight arrays as they were then. -/
theorem gates_eq (c : Dev nD) :
    W4 m ρ c (Proc.devRef .tc main_v23)
      = gatesOf (F := F) (W1 m ρ c (Proc.devRef .tc main_v0)) (W1 m ρ c (Proc.devRef .tc main_arg1))
          (W1 m ρ c (Proc.devRef .tc main_arg2)) (W1 m ρ c (Proc.devRef .tc main_arg3)) (W1 m ρ c (Proc.devRef .tc main_arg4)) := by
  show StableHlo.after hostOps1_2 (StableHlo.after hostOps1_1 (StableHlo.after hostOps1 (W1 m ρ c))) (Proc.devRef .tc main_v23) = _
  after_results_simp
  rfl

end Cert.KernelIdeal.HostChain

end
-- ==== Proof.KernelValue.lean ====
/-
  The kernel's program end to end: its result array as one function of the five argument arrays.

  The first region leaves the patch means of the image in the pooled array; no host operation writes the image or the
  weight arrays, so the stretch of host operations between the regions leaves in the gates array the dense network of
  those means and of the weights as launched; the second region leaves the image gated by that array in the result.
-/
import proofs.«158542_j55224689492533_1_alg».proof.Proof.KernelRun
import proofs.«158542_j55224689492533_1_alg».proof.Proof.PoolArray
import proofs.«158542_j55224689492533_1_alg».proof.Proof.GateArray
import proofs.«158542_j55224689492533_1_alg».proof.Proof.HostChain

set_option maxRecDepth 16384

noncomputable section

namespace Cert.KernelIdeal.KernelValue

open Idealize.ShloMosaic Idealize.ShloMosaic.TcCoe Idealize.SL.Sem
open Cert.KernelIdeal Cert.KernelIdeal.Gen Cert.Excite

/-- The whole computation: the image gated by the dense network of its own patch means. -/
def result (x0 : FVec Ideal S8x64x256x256 .f32) (x1 : FVec Ideal S256x1024 .f32) (x2 : FVec Ideal S256 .f32)
    (x3 : FVec Ideal S1024x256 .f32) (x4 : FVec Ideal S1024 .f32) : FVec Ideal S8x64x256x256 .f32 :=
  gate x0 (HostChain.gatesOf (F := Ideal) (pool x0) x1 x2 x3 x4)

variable (m : (ℓ : Loc nD τ sig) → Buf (Elt Ideal) ℓ) (ρ : Dev nD → PrngReg)

/-- After the first region the pooled array holds the patch means of the launched image ... -/
theorem pooled_after (c : Dev nD) :
    W1 m ρ c (Proc.devRef .tc main_v0) = pool (m ((c.tc : Thread nD τ).loc main_arg0)) :=
  (W1_arr m ρ c 1).trans (PoolArray.pooled (V0 m ρ) c)

/-- ... and the weight arrays, which the region does not touch, are as launched. -/
theorem w1_after (c : Dev nD) : W1 m ρ c (Proc.devRef .tc main_arg1) = m ((c.tc : Thread nD τ).loc main_arg1) :=
  W1_of_ne m ρ c main_arg1 (by decide)
theorem w2_after (c : Dev nD) : W1 m ρ c (Proc.devRef .tc main_arg2) = m ((c.tc : Thread nD τ).loc main_arg2) :=
  W1_of_ne m ρ c main_arg2 (by decide)
theorem w3_after (c : Dev nD) : W1 m ρ c (Proc.devRef .tc main_arg3) = m ((c.tc : Thread nD τ).loc main_arg3) :=
  W1_of_ne m ρ c main_arg3 (by decide)
theorem w4_after (c : Dev nD) : W1 m ρ c (Proc.devRef .tc main_arg4) = m ((c.tc : Thread nD τ).loc main_arg4) :=
  W1_of_ne m ρ c main_arg4 (by decide)

/-- The second region finds the image as launched: its input window leaves it in place, and the region's exit contents
    at the image are the launch contents. -/
theorem img_before (c : Dev nD) : V4 m ρ c main_arg0 = m ((c.tc : Thread nD τ).loc main_arg0) :=
  ((W5_arr m ρ c 0).trans (((dat1 (V4 m ρ) c).arrAt_in 0 rfl _).trans (A_eq1 (V4 m ρ) c 0))).symm.trans (W5_main_arg0 m ρ c)

/-- The second region finds in the gates array the dense network of the patch means and the launched weights. -/
theorem gates_before (c : Dev nD) :
    V4 m ρ c main_v23 = HostChain.gatesOf (F := Ideal) (pool (m ((c.tc : Thread nD τ).loc main_arg0)))
      (m ((c.tc : Thread nD τ).loc main_arg1)) (m ((c.tc : Thread nD τ).loc main_arg2))
      (m ((c.tc : Thread nD τ).loc main_arg3)) (m ((c.tc : Thread nD τ).loc main_arg4)) := by
  refine (HostChain.gates_eq m ρ c).trans ?_
  rw [pooled_after, w1_after, w2_after, w3_after, w4_after]

/-- What the second region's write-backs leave in the result array. -/
theorem out_eq (c : Dev nD) :
    (dat1 (V4 m ρ) c).arrAt 2 cfg1.N = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (GateArray.gated (V4 m ρ) c).trans ?_
  show gate (V4 m ρ c main_arg0) (V4 m ρ c main_v23) = _
  rw [img_before, gates_before]
  rfl

/-- Every weakly fair execution of the kernel's program terminates, nothing faulting, with the result array at
    result of the launched arguments and the arguments unchanged. -/
theorem run : θ_run defs (onTc (τ := τ) (main (F := Ideal))) ⟨m, fun _ => 0, ρ⟩ (fun r => ∀ c : Dev nD,
      r.2.mem ((c.tc : Thread nD τ).loc main_v24) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (out_eq m ρ c), (h c).2⟩) (run_out m ρ)

end Cert.KernelIdeal.KernelValue

end
-- ==== Proof.RefValue.lean ====
/-
  The reference's result as the same two functions.

  The reference views the image as [8, 64, 4, 64, 4, 64] (row 64 p + r of the image is (p, r), column 64 q + s is (q, s)),
  sums over the two inner axes and divides by 4096: the mean of each patch, since a division by 4096 is a product with
  1 / 4096 on every extended real. It then runs the same dense network as the kernel's program on those means, repeats
  each gate over the two inner axes, multiplies, and views the product as [8, 64, 256, 256] again: every pixel times the
  gate of its patch.
-/
import proofs.«158542_j55224689492533_1_alg».proof.Proof.Gen.ReferenceIdeal.Run
import proofs.«158542_j55224689492533_1_alg».proof.Proof.Gen.ReferenceIdeal.Read
import proofs.«158542_j55224689492533_1_alg».proof.Proof.Spec
import proofs.«158542_j55224689492533_1_alg».proof.Proof.HostChain
import Idealize.ShloMosaic.Lib.Pipeline.Value
import Idealize.ShloMosaic.Lib.ValueIdxRank6
import Idealize.ShloMosaic.Lib.IdealHost
import Idealize.ShloMosaic.PureOps.Ideal.Laws

set_option maxRecDepth 16384

noncomputable section

open scoped BigOperators

namespace Cert.ReferenceIdeal.RefValue

open Idealize.ShloMosaic Idealize.ShloMosaic.ValueIdx Cert.ReferenceIdeal Cert.ReferenceIdeal.Gen Cert.ReferenceIdeal.Read Cert.Excite

variable {α : Type}

/-! ## The six-axis view of the image, read at coordinates -/

/-- Splitting rows and columns into (patch, number inside the patch). -/
theorem split6 (v : (⟨4, ![8, 64, 256, 256]⟩ : Shape).Idx → α)
    (h : (⟨4, ![8, 64, 256, 256]⟩ : Shape).ShapeCasts ⟨6, ![8, 64, 4, 64, 4, 64]⟩)
    (b : Fin 8) (c : Fin 64) (p : Fin 4) (r : Fin 64) (q : Fin 4) (s : Fin 64) :
    shapeCast ⟨6, ![8, 64, 4, 64, 4, 64]⟩ v h (ix6 b c p r q s) = v (ix4 b c (pix p r) (pix q s)) :=
  shapeCast_apply v h _ _ (by
    rewrite [Shape.rowMajor_val_four, Shape.rowMajor_val_six]
    show ((b.val * 64 + c.val) * 256 + (p.val * 64 + r.val)) * 256 + (q.val * 64 + s.val)
      = ((((b.val * 64 + c.val) * 4 + p.val) * 64 + r.val) * 4 + q.val) * 64 + s.val
    omega)

/-- Merging them back. -/
theorem merge6 (v : (⟨6, ![8, 64, 4, 64, 4, 64]⟩ : Shape).Idx → α)
    (h : (⟨6, ![8, 64, 4, 64, 4, 64]⟩ : Shape).ShapeCasts ⟨4, ![8, 64, 256, 256]⟩)
    (b : Fin 8) (c : Fin 64) (y w : Fin 256) :
    shapeCast ⟨4, ![8, 64, 256, 256]⟩ v h (ix4 b c y w) = v (ix6 b c (patch y) (within y) (patch w) (within w)) :=
  shapeCast_apply v h _ _ (by
    rewrite [Shape.rowMajor_val_four, Shape.rowMajor_val_six]
    show ((((b.val * 64 + c.val) * 4 + y.val / 64) * 64 + y.val % 64) * 4 + w.val / 64) * 64 + w.val % 64
      = ((b.val * 64 + c.val) * 256 + y.val) * 256 + w.val
    omega)

/-! ## The sum over the two inner axes -/

/-- The host's sum over axes 3 and 5 of a [8, 64, 4, 64, 4, 64] array, at (b, c, p, q): the initial value plus the sum
    over the 64 x 64 pairs of inner coordinates. The indices that reduce to (b, c, p, q) are exactly those with outer
    coordinates (b, c, p, q), one per pair of inner coordinates. -/
theorem reduce_patches (h : (⟨6, ![8, 64, 4, 64, 4, 64]⟩ : Shape).ReducesTo [3, 5] ⟨4, ![8, 64, 4, 4]⟩)
    (y : (⟨6, ![8, 64, 4, 64, 4, 64]⟩ : Shape).Idx → EReal) (init : EReal) (b : Fin 8) (c : Fin 64) (p q : Fin 4) :
    Ideal.hostReduceAdd h y init (ix4 b c p q) = init + ∑ r : Fin 64 × Fin 64, y (ix6 b c p r.1 q r.2) := by
  unfold Ideal.hostReduceAdd
  refine congrArg (init + ·) ?_
  have key : ∀ i : (⟨6, ![8, 64, 4, 64, 4, 64]⟩ : Shape).Idx, h.drop i = ix4 b c p q →
      i = ix6 b c p (⟨(i 3).val, (i 3).isLt⟩ : Fin 64) q (⟨(i 5).val, (i 5).isLt⟩ : Fin 64) := by
    intro i hj
    have e0 : (i 0).val = b.val := (h.drop_apply_val_of_eq i 0 0).symm.trans (congrArg (fun j => (j 0).val) hj)
    have e1 : (i 1).val = c.val := (h.drop_apply_val_of_eq i 1 1).symm.trans (congrArg (fun j => (j 1).val) hj)
    have e2 : (i 2).val = p.val := (h.drop_apply_val_of_eq i 2 2).symm.trans (congrArg (fun j => (j 2).val) hj)
    have e4 : (i 4).val = q.val := (h.drop_apply_val_of_eq i 3 4).symm.trans (congrArg (fun j => (j 3).val) hj)
    funext a; apply Fin.ext
    match a with
    | ⟨0, _⟩ => exact e0
    | ⟨1, _⟩ => exact e1
    | ⟨2, _⟩ => exact e2
    | ⟨3, _⟩ => rfl
    | ⟨4, _⟩ => exact e4
    | ⟨5, _⟩ => rfl
  refine Finset.sum_nbij' (fun i => ((⟨(i 3).val, (i 3).isLt⟩ : Fin 64), (⟨(i 5).val, (i 5).isLt⟩ : Fin 64)))
    (fun r => ix6 b c p r.1 q r.2) ?_ ?_ ?_ ?_ ?_
  · intro i _; exact Finset.mem_univ _
  · intro r _
    refine Finset.mem_filter.2 ⟨Finset.mem_univ _, ?_⟩
    funext a; apply Fin.ext
    match a with
    | ⟨0, _⟩ => exact h.drop_apply_val_of_eq _ 0 0
    | ⟨1, _⟩ => exact h.drop_apply_val_of_eq _ 1 1
    | ⟨2, _⟩ => exact h.drop_apply_val_of_eq _ 2 2
    | ⟨3, _⟩ => exact h.drop_apply_val_of_eq _ 3 4
  · intro i hi; exact (key i (Finset.mem_filter.1 hi).2).symm
  · intro r _; rfl
  · intro i hi; exact congrArg y (key i (Finset.mem_filter.1 hi).2)

/-! ## The reference's pooled means and its result -/

/-- The reference's pooled array is the patch means of its image. -/
theorem ref_pool (x0 : FVec Ideal S8x64x256x256 .f32) : val_main_v3 (F := Ideal) x0 = pool x0 := by
  funext i
  obtain ⟨b, c, p, q, rfl⟩ : ∃ (b : Fin 8) (c : Fin 64) (p q : Fin 4), i = ix4 b c p q := ⟨i 0, i 1, i 2, i 3, eq_ix4 i⟩
  rw [pool_ix4]
  refine (val_main_v3_apply (F := Ideal) x0 _).trans ?_
  rw [val_main_v2_apply, val_main_cst_0_apply]
  show Ideal.div (val_main_v1 (F := Ideal) x0 (ix4 b c p q)) (Ideal.ofBits .f32 0x45800000#32) = _
  rw [ofBits_4096, div_4096]
  unfold poolAt
  refine congrArg (· * _) ?_
  unfold val_main_v1
  refine (hostReduceAdd_apply _ _ _ _ _).trans ?_
  refine (reduce_patches _ _ _ b c p q).trans ?_
  show Ideal.ofBits .f32 0x00000000#32 + _ = _
  rw [Ideal.ofBits_zero_f32, zero_add]
  refine Finset.sum_congr rfl fun r _ => ?_
  unfold val_main_v0
  exact split6 x0 _ b c p r.1 q r.2

/-- The reference's result is its image gated by its gates array. -/
theorem ref_out (x0 : FVec Ideal S8x64x256x256 .f32) (x1 : FVec Ideal S256x1024 .f32) (x2 : FVec Ideal S256 .f32)
    (x3 : FVec Ideal S1024x256 .f32) (x4 : FVec Ideal S1024 .f32) :
    val_main_v30 (F := Ideal) x0 x1 x2 x3 x4 = gate x0 (val_main_v26 (F := Ideal) x0 x1 x2 x3 x4) := by
  funext i
  obtain ⟨b, c, y, w, rfl⟩ : ∃ (b : Fin 8) (c : Fin 64) (y w : Fin 256), i = ix4 b c y w := ⟨i 0, i 1, i 2, i 3, eq_ix4 i⟩
  rw [gate_ix4]
  unfold gateAt val_main_v30
  refine (merge6 _ _ b c y w).trans ?_
  refine (val_main_v29_apply (F := Ideal) x0 x1 x2 x3 x4 _).trans ?_
  refine congrArg₂ (· * ·) ?_ ?_
  · unfold val_main_v0
    refine (split6 x0 _ b c (patch y) (within y) (patch w) (within w)).trans ?_
    rw [pix_patch_within, pix_patch_within]
  · rw [val_main_v28_apply, val_main_v27_apply]
    refine congrArg (val_main_v26 (F := Ideal) x0 x1 x2 x3 x4) (funext fun a => Fin.ext ?_)
    match a with
    | ⟨0, _⟩ => rfl
    | ⟨1, _⟩ => rfl
    | ⟨2, _⟩ => rfl
    | ⟨3, _⟩ => rfl

/-- The reference's gates array is the dense network of its pooled means and of the four weight arrays: the same
    host operations as in the kernel's program, in the same order. -/
theorem ref_gates {F : FTy → Type} [FloatOps F] (x0 : FVec F S8x64x256x256 .f32) (x1 : FVec F S256x1024 .f32) (x2 : FVec F S256 .f32)
    (x3 : FVec F S1024x256 .f32) (x4 : FVec F S1024 .f32) :
    val_main_v26 (F := F) x0 x1 x2 x3 x4 = Cert.KernelIdeal.HostChain.gatesOf (F := F) (val_main_v3 (F := F) x0) x1 x2 x3 x4 := by
  rfl

end Cert.ReferenceIdeal.RefValue

end
-- ==== Proof.lean ====
/-
  A squeeze-and-excite gate over a 4 x 4 grid of 64 x 64 patches, as two kernels around a small dense network, against
  the same computation written with whole-array operations.

  Both programs take an image batch x : [8, 64, 256, 256] and four weight arrays. Both compute the mean of every patch
  (pool x : [8, 64, 4, 4]), run the same dense network on the 8 x 1024 means to get one gate per patch (gatesOf), and
  multiply every pixel by the gate of its patch (gate). They differ in how the first and the last step are spelt:

  * the kernel's first region sums each patch's rows and then its columns, block by block over (batch, 16 channels), and
    multiplies by the word of 2^-12; the reference sums over both inner axes of a six-axis view at once and divides by
    4096. Sums of extended reals can be taken in any order, and a division by 4096 is a product with 1 / 4096 on every
    extended real, so both are pool x (Proof/PoolBlock, Proof/PoolArray, Proof/RefValue);
  * the kernel's second region repeats each gate over its patch with shape casts and broadcasts inside a block and
    stores the block in four row groups; the reference broadcasts over the six-axis view. Both are gate x g
    (Proof/GateBlock, Proof/GateArray, Proof/RefValue).

  The dense network between them is the same list of host operations in both programs and is never opened
  (Proof/HostChain): only its arguments are compared. No step needs the inputs to be finite.

  The frames of the two kernel programs are the generated ones; the reference's frame is its generated run with the
  result dropped; the idealization rewrote nothing, so it preserves the kernel trivially.
-/
import proofs.«158542_j55224689492533_1_alg».proof.Defs
import proofs.«158542_j55224689492533_1_alg».proof.Proof.Gen.Kernel
import proofs.«158542_j55224689492533_1_alg».proof.Proof.Gen.Kernel.Skeleton
import proofs.«158542_j55224689492533_1_alg».proof.Proof.Gen.Kernel.Launch
import proofs.«158542_j55224689492533_1_alg».proof.Proof.Gen.Kernel.Points
import proofs.«158542_j55224689492533_1_alg».proof.Proof.Gen.Kernel.Frame
import proofs.«158542_j55224689492533_1_alg».proof.Proof.Gen.KernelIdeal
import proofs.«158542_j55224689492533_1_alg».proof.Proof.Gen.KernelIdeal.Skeleton
import proofs.«158542_j55224689492533_1_alg».proof.Proof.Gen.KernelIdeal.Launch
import proofs.«158542_j55224689492533_1_alg».proof.Proof.Gen.KernelIdeal.Points
import proofs.«158542_j55224689492533_1_alg».proof.Proof.Gen.KernelIdeal.Frame
import proofs.«158542_j55224689492533_1_alg».proof.Proof.Gen.ReferenceIdeal
import proofs.«158542_j55224689492533_1_alg».proof.Proof.Gen.ReferenceIdeal.Run
import proofs.«158542_j55224689492533_1_alg».proof.Proof.Gen.ReferenceIdeal.Read
import proofs.«158542_j55224689492533_1_alg».proof.Proof.Gen.Pre_finite_inputs
import proofs.«158542_j55224689492533_1_alg».proof.Proof.KernelValue
import proofs.«158542_j55224689492533_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result term is the kernel program's function of the same arguments: pooled means by pooled means,
    network by network, gated image by gated image. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v30 m' c
      = Cert.KernelIdeal.KernelValue.result
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) := by
  rw [Cert.ReferenceIdeal.Read.val_main_v30_eq, Cert.ReferenceIdeal.RefValue.ref_out, Cert.ReferenceIdeal.RefValue.ref_gates,
    Cert.ReferenceIdeal.RefValue.ref_pool]
  rfl

/-- From memories that agree on the arguments both idealized programs run, and end with the same result array. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [reference_result, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
